-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S4096x2048 : Shape := ⟨2, ![4096, 2048]⟩
abbrev S4096 : Shape := ⟨1, ![4096]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8192x2048 .f32) (main_arg1 : FVec F S4096x2048 .f32) (main_arg2 : FVec F S4096 .f32) (main_arg3 : FVec F S4096 .f32) (main_arg4 : FVec F S4096 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_v13 main_v16
-- ==== Kernel.lean ====
abbrev S8192x2048 : Shape := ⟨2, ![8192, 2048]⟩
abbrev S4096x2048 : Shape := ⟨2, ![4096, 2048]⟩
abbrev S4096 : Shape := ⟨1, ![4096]⟩
abbrev S8192x4096 : Shape := ⟨2, ![8192, 4096]⟩
abbrev S256x2048 : Shape := ⟨2, ![256, 2048]⟩
abbrev S256x4096 : Shape := ⟨2, ![256, 4096]⟩
abbrev S1x4096 : Shape := ⟨2, ![1, 4096]⟩
abbrev S256x32x128 : Shape := ⟨3, ![256, 32, 128]⟩
abbrev S256x32 : Shape := ⟨2, ![256, 32]⟩
abbrev S256x32x1 : Shape := ⟨3, ![256, 32, 1]⟩

abbrev nBuf : Space → Nat
  | .hbm => 8
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S4096x2048, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S8192x2048, .bf16⟩
  | .hbm, ⟨6, _⟩ => ⟨S4096x2048, .bf16⟩
  | .hbm, ⟨7, _⟩ => ⟨S8192x4096, .f32⟩
  | .local _ .vmem, ⟨0, _⟩ => ⟨S256x2048, .bf16⟩
  | .local _ .vmem, ⟨1, _⟩ => ⟨S256x2048, .bf16⟩
  | .local _ .vmem, ⟨2, _⟩ => ⟨S4096x2048, .bf16⟩
  | .local _ .vmem, ⟨3, _⟩ => ⟨S4096, .f32⟩
  | .local _ .vmem, ⟨4, _⟩ => ⟨S4096, .f32⟩
  | .local _ .vmem, ⟨5, _⟩ => ⟨S4096, .f32⟩
  | .local _ .vmem, ⟨6, _⟩ => ⟨S256x4096, .f32⟩
  | .local _ .vmem, ⟨7, _⟩ => ⟨S256x4096, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S256x4096 : S1x4096.Broadcasts S256x4096
  shapeCasts_S256x4096_S256x32x128 : S256x4096.ShapeCasts S256x32x128
  reduces_S256x32x128_S256x32 : S256x32x128.Reduces [2] S256x32
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  inb_S256x4096_S256x4096_0_0 : ∀ a, (![0, 0] : Fin 2 → Nat) a + S256x4096.size a ≤ S256x4096.size a
  h_S256x4096 : 0 < S256x4096.numel
  dot_S256x2048_S4096x2048_S256x4096_1_1_0_0_n_n_wf : DotDims.WF S256x2048 S4096x2048 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .bf16 = 32 ∨ (Rect.block (s := S8192x2048) S256x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x2048.size a ≤ S4096x2048.size a
  hwx0_1 : ∀ i : grid0.Coords, EltTy.bits .bf16 = 32 ∨ (Rect.block (s := S4096x2048) S4096x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S4096.size a
  hwx0_2 : ∀ i : grid0.Coords, EltTy.bits .f32 = 32 ∨ (Rect.block (s := S4096) S4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096.size a ≤ S4096.size a
  hwx0_3 : ∀ i : grid0.Coords, EltTy.bits .f32 = 32 ∨ (Rect.block (s := S4096) S4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096.size a ≤ S4096.size a
  hwx0_4 : ∀ i : grid0.Coords, EltTy.bits .f32 = 32 ∨ (Rect.block (s := S4096) S4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S8192x4096.size a
  hwx0_5 : ∀ i : grid0.Coords, EltTy.bits .f32 = 32 ∨ (Rect.block (s := S8192x4096) S256x4096.size (cc0_transform_5 i) (hinb0_5 i)).WholeWords (EltTy.packing .f32)

variable [Facts₀]

def dot_S256x2048_S4096x2048_S256x4096_1_1_0_0_n_n : DotDims S256x2048 S4096x2048 S256x4096 where
  lhsContracting := [1]
  rhsContracting := [1]
  lhsNonContracting := [0]
  rhsNonContracting := [0]
  lhsBatch := []
  rhsBatch := []
  wf := dot_S256x2048_S4096x2048_S256x4096_1_1_0_0_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S4096x2048 : Shape := ⟨2, ![4096, 2048]⟩
abbrev S4096 : Shape := ⟨1, ![4096]⟩
abbrev S8192x4096 : Shape := ⟨2, ![8192, 4096]⟩
abbrev S1x4096 : Shape := ⟨2, ![1, 4096]⟩
abbrev S8192x32x128 : Shape := ⟨3, ![8192, 32, 128]⟩
abbrev S_ : Shape := ⟨0, ![]⟩
abbrev S8192x32 : Shape := ⟨2, ![8192, 32]⟩
abbrev S8192x32x1 : Shape := ⟨3, ![8192, 32, 1]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4096x2048, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S8192x32x128, .f32⟩
  | .hbm, ⟨10, _⟩ => ⟨S_, .f32⟩
  | .hbm, ⟨11, _⟩ => ⟨S8192x32, .f32⟩
  | .hbm, ⟨12, _⟩ => ⟨S8192x32x1, .f32⟩
  | .hbm, ⟨13, _⟩ => ⟨S_, .f32⟩
  | .hbm, ⟨14, _⟩ => ⟨S8192x32x1, .f32⟩
  | .hbm, ⟨15, _⟩ => ⟨S8192x32x1, .f32⟩
  | .hbm, ⟨16, _⟩ => ⟨S8192x32x128, .f32⟩
  | .hbm, ⟨17, _⟩ => ⟨S8192x32x128, .f32⟩
  | .hbm, ⟨18, _⟩ => ⟨S8192x32x128, .f32⟩
  | .hbm, ⟨19, _⟩ => ⟨S_, .f32⟩
  | .hbm, ⟨20, _⟩ => ⟨S8192x32, .f32⟩
  | .hbm, ⟨21, _⟩ => ⟨S8192x32x1, .f32⟩
  | .hbm, ⟨22, _⟩ => ⟨S_, .f32⟩
  | .hbm, ⟨23, _⟩ => ⟨S8192x32x1, .f32⟩
  | .hbm, ⟨24, _⟩ => ⟨S8192x32x1, .f32⟩
  | .hbm, ⟨25, _⟩ => ⟨S8192x32x128, .f32⟩
  | .hbm, ⟨26, _⟩ => ⟨S8192x32x128, .f32⟩
  | .hbm, ⟨27, _⟩ => ⟨S_, .f32⟩
  | .hbm, ⟨28, _⟩ => ⟨S8192x32x1, .f32⟩
  | .hbm, ⟨29, _⟩ => ⟨S8192x32x1, .f32⟩
  | .hbm, ⟨30, _⟩ => ⟨S8192x32x1, .f32⟩
  | .hbm, ⟨31, _⟩ => ⟨S8192x32x128, .f32⟩
  | .hbm, ⟨32, _⟩ => ⟨S8192x32x128, .f32⟩
  | .hbm, ⟨33, _⟩ => ⟨S8192x4096, .f32⟩
  | .hbm, ⟨34, _⟩ => ⟨S1x4096, .f32⟩
  | .hbm, ⟨35, _⟩ => ⟨S8192x4096, .f32⟩
  | .hbm, ⟨36, _⟩ => ⟨S8192x4096, .f32⟩
  | .hbm, ⟨37, _⟩ => ⟨S1x4096, .f32⟩
  | .hbm, ⟨38, _⟩ => ⟨S8192x4096, .f32⟩
  | .hbm, ⟨39, _⟩ => ⟨S8192x4096, .f32⟩
  | .hbm, ⟨40, _⟩ => ⟨S_, .f32⟩
  | .hbm, ⟨41, _⟩ => ⟨S8192x4096, .f32⟩
  | .hbm, ⟨42, _⟩ => ⟨S8192x4096, .i1⟩
  | .hbm, ⟨43, _⟩ => ⟨S_, .f32⟩
  | .hbm, ⟨44, _⟩ => ⟨S8192x4096, .f32⟩
  | .hbm, ⟨45, _⟩ => ⟨S8192x4096, .f32⟩
  | .hbm, ⟨46, _⟩ => ⟨S8192x4096, .f32⟩
  | .hbm, ⟨47, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S8192x32x128 : S8192x4096.ShapeCasts S8192x32x128
  reducesTo_S8192x32x128_S8192x32_d2 : S8192x32x128.ReducesTo [2] S8192x32
  h_S_ : 0 < S_.numel
  bcast_S8192x32_S8192x32x1_0_1 : S8192x32.BroadcastsInDim S8192x32x1 (![0, 1] : Fin 2 → Fin S8192x32x1.rank)
  bcast_S_S8192x32x1 : S_.BroadcastsInDim S8192x32x1 (![] : Fin 0 → Fin S8192x32x1.rank)
  bcast_S8192x32x1_S8192x32x128_0_1_2 : S8192x32x1.BroadcastsInDim S8192x32x128 (![0, 1, 2] : Fin 3 → Fin S8192x32x128.rank)
  shapeCasts_S8192x32x128_S8192x4096 : S8192x32x128.ShapeCasts S8192x4096
  bcast_S_S8192x4096 : S_.BroadcastsInDim S8192x4096 (![] : Fin 0 → Fin S8192x4096.rank)
  dot_S8192x2048_S4096x2048_S8192x4096_1_1_0_0_n_n_wf : DotDims.WF S8192x2048 S4096x2048 S8192x4096 [1] [1] [0] [0] [] []

variable [Facts₀]

def dot_S8192x2048_S4096x2048_S8192x4096_1_1_0_0_n_n : DotDims S8192x2048 S4096x2048 S8192x4096 where
  lhsContracting := [1]
  rhsContracting := [1]
  lhsNonContracting := [0]
  rhsNonContracting := [0]
  lhsBatch := []
  rhsBatch := []
  wf := dot_S8192x2048_S4096x2048_S8192x4096_1_1_0_0_n_n_wf

class Facts : Prop extends Facts₀ where

variable [Facts]
-- ==== Proof.GroupNormRow.lean ====
import Idealize.ShloMosaic.PureOps.Ideal
import Idealize.ShloMosaic.Lib.ValueIdx

/-!
# One row through the layer: linear, group normalisation, affine, leaky ReLU, doubling

A row of the result depends on one row `x` of the input only. With `h q = ∑ k, x k · W q k + b q` the 4096 hidden
values of that row, the 32 groups are the runs of 128 consecutive columns: column `g · 128 + j` is lane `j` of group
`g`. Within a group, `mean = (∑ lanes) / 128`, `dev = h − mean`, `var = (∑ dev²) / 128`, and the normalised value is
`dev · rsqrt (var + ε)`. Column `q` then gets `a = normalised · gw q + gb q`, `y = a` if `a > 0` else `a · slope`, and
the result is `y + y`. All of it on the extended reals, the four literals at their exact binary values.
-/

noncomputable section

namespace Cert.GroupNormRow

open Idealize.ShloMosaic

/-- The column that is lane `j` of group `g`. -/
def lane (g : Fin 32) (j : Fin 128) : Fin 4096 :=
  ⟨g.val * 128 + j.val, by have := g.isLt; have := j.isLt; omega⟩

/-- The group a column lies in. -/
def grp (q : Fin 4096) : Fin 32 := ⟨q.val / 128, by have := q.isLt; omega⟩

/-- A column's lane within its group. -/
def lan (q : Fin 4096) : Fin 128 := ⟨q.val % 128, Nat.mod_lt _ (by decide)⟩

/-- The group width 128, the epsilon, the negative slope and zero, as the f32 words both programs carry. -/
abbrev width : EReal := Ideal.ofBits .f32 0x43000000#32
abbrev eps : EReal := Ideal.ofBits .f32 0x3727C5AC#32
abbrev slope : EReal := Ideal.ofBits .f32 0x3C23D70A#32
abbrev zero : EReal := Ideal.ofBits .f32 0x00000000#32

/-- The linear layer on one row: `∑ k, x k · W q k + b q`. -/
def lin (x : Fin 2048 → EReal) (W : Fin 4096 → Fin 2048 → EReal) (b : Fin 4096 → EReal) (q : Fin 4096) : EReal :=
  (∑ k : Fin 2048, x k * W q k) + b q

/-- A group's mean. -/
def mean (h : Fin 4096 → EReal) (g : Fin 32) : EReal := Ideal.div (∑ j : Fin 128, h (lane g j)) width

/-- A lane's deviation from its group's mean. -/
def dev (h : Fin 4096 → EReal) (g : Fin 32) (j : Fin 128) : EReal := h (lane g j) - mean h g

/-- A group's variance: the mean of the squared deviations. -/
def var (h : Fin 4096 → EReal) (g : Fin 32) : EReal := Ideal.div (∑ j : Fin 128, dev h g j * dev h g j) width

/-- The normalised lane. -/
def normed (h : Fin 4096 → EReal) (g : Fin 32) (j : Fin 128) : EReal := dev h g j * Ideal.rsqrt (var h g + eps)

/-- Scale and shift, column by column. -/
def affine (h gw gb : Fin 4096 → EReal) (q : Fin 4096) : EReal := normed h (grp q) (lan q) * gw q + gb q

/-- The leaky ReLU: `a` where `a > 0`, else `a · slope`. -/
def leaky (a : EReal) : EReal := Scalar.select (Ideal.cmp .ogt a zero) a (a * slope)

/-- The row's result at column `q`. -/
def out (h gw gb : Fin 4096 → EReal) (q : Fin 4096) : EReal := leaky (affine h gw gb q) + leaky (affine h gw gb q)

end Cert.GroupNormRow

end
-- ==== Proof.GroupLayout.lean ====
import Idealize.ShloMosaic.Lib.ValueIdx
import Idealize.ShloMosaic.Lib.Pipeline.Value
import Idealize.ShloMosaic.PureOps.Ideal.Laws
import proofs.«151921_j3556232921930_1_alg».proof.Proof.GroupNormRow

/-!
# Rows of 4096 columns seen as 32 groups of 128 lanes: the layout operations read at an entry

An `[R, 4096]` array reshaped to `[R, 32, 128]` keeps row-major order, so entry `(p, g, j)` of the reshaped array is
entry `(p, g · 128 + j)` of the original, and back: entry `(p, q)` is `(p, q / 128, q % 128)`. A sum over the lanes keeps
`(p, g)`; re-laying it as `[R, 32, 1]` and broadcasting along the unit axis gives every lane its group's value.
-/

noncomputable section

namespace Cert.GroupLayout

open Idealize.ShloMosaic Idealize.ShloMosaic.ValueIdx Cert.GroupNormRow

variable {α : Type} {R : ℕ}

/-- Rows split into groups: entry `(p, g, j)` is the row's column `g · 128 + j`. -/
theorem split_apply (x : (⟨2, ![R, 4096]⟩ : Shape).Idx → α)
    (h : (⟨2, ![R, 4096]⟩ : Shape).ShapeCasts ⟨3, ![R, 32, 128]⟩) (p : Fin R) (g : Fin 32) (j : Fin 128) :
    shapeCast ⟨3, ![R, 32, 128]⟩ x h (ix3 p g j) = x (ix2 p (lane g j)) :=
  shapeCast_apply x h _ _ (by
    rw [Shape.rowMajor_val_two, Shape.rowMajor_val_three]
    show p.val * 4096 + (g.val * 128 + j.val) = (p.val * 32 + g.val) * 128 + j.val
    omega)

/-- Groups merged back into rows: entry `(p, q)` is lane `q % 128` of group `q / 128`. -/
theorem merge_apply (x : (⟨3, ![R, 32, 128]⟩ : Shape).Idx → α)
    (h : (⟨3, ![R, 32, 128]⟩ : Shape).ShapeCasts ⟨2, ![R, 4096]⟩) (p : Fin R) (q : Fin 4096) :
    shapeCast ⟨2, ![R, 4096]⟩ x h (ix2 p q) = x (ix3 p (grp q) (lan q)) :=
  shapeCast_apply x h _ _ (by
    rw [Shape.rowMajor_val_three, Shape.rowMajor_val_two]
    show (p.val * 32 + q.val / 128) * 128 + q.val % 128 = p.val * 4096 + q.val
    omega)

/-- A per-group value re-laid with a trailing unit axis: entry `(p, g, u)` is the value at `(p, g)`. -/
theorem keepdims_apply (x : (⟨2, ![R, 32]⟩ : Shape).Idx → α)
    (h : (⟨2, ![R, 32]⟩ : Shape).ShapeCasts ⟨3, ![R, 32, 1]⟩) (p : Fin R) (g : Fin 32) (u : Fin 1) :
    shapeCast ⟨3, ![R, 32, 1]⟩ x h (ix3 p g u) = x (ix2 p g) :=
  shapeCast_apply x h _ _ (by
    have hu : u.val = 0 := by omega
    rw [Shape.rowMajor_val_two, Shape.rowMajor_val_three]
    show p.val * 32 + g.val = (p.val * 32 + g.val) * 1 + u.val
    omega)

/-- A per-group value spread over the group's lanes: entry `(p, g, j)` is the value at `(p, g, 0)`. -/
theorem lanes_apply (x : (⟨3, ![R, 32, 1]⟩ : Shape).Idx → α)
    (h : (⟨3, ![R, 32, 1]⟩ : Shape).Broadcasts ⟨3, ![R, 32, 128]⟩) (p : Fin R) (g : Fin 32) (j : Fin 128) :
    broadcastTo ⟨3, ![R, 32, 128]⟩ x h (ix3 p g j) = x (ix3 p g (0 : Fin 1)) := by
  refine broadcastTo_apply x h (ix3 p g j) (ix3 p g (0 : Fin 1)) fun ax => ?_
  match ax with
  | ⟨0, _⟩ =>
    show p.val = if R = 1 then 0 else p.val
    split
    · have := p.isLt; omega
    · rfl
  | ⟨1, _⟩ =>
    show g.val = if (32 : ℕ) = 1 then 0 else g.val
    rw [if_neg (by decide)]
  | ⟨2, _⟩ =>
    show (0 : ℕ) = if (1 : ℕ) = 1 then 0 else j.val
    rw [if_pos rfl]

/-- The sum over a group's lanes, from zero: at `(p, g)` it is `∑ j, src (p, g, j)`. -/
theorem laneSum_apply (src : FVec Ideal (⟨3, ![R, 32, 128]⟩ : Shape) .f32)
    (h : (⟨3, ![R, 32, 128]⟩ : Shape).Reduces [2] ⟨2, ![R, 32]⟩) (hφ : FKind.Formats .f32)
    (hacc : (0x00000000#32 : BitVec 32) = FKind.add.neutral .f32 hφ) (p : Fin R) (g : Fin 32) :
    multiReduction .add [2] ⟨2, ![R, 32]⟩ src 0x00000000#32 h hφ hacc (ix2 p g) = ∑ j : Fin 128, src (ix3 p g j) :=
  (Ideal.multiReduction_add_single src _ h hφ hacc (ix2 p g)).trans
    (Finset.sum_congr rfl fun j _ => congrArg src (funext fun a => Fin.ext (by
      match a with
      | ⟨0, _⟩ => rfl
      | ⟨1, _⟩ => rfl
      | ⟨2, _⟩ => rfl)))

end Cert.GroupLayout

end
-- ==== Proof.LibContractRhsT.lean ====
import Idealize.ShloMosaic.PureOps.Ideal.Laws
import Idealize.ShloMosaic.Lib.ValueIdx

/-!
# The contraction `[M, K] × [N, K]` read at an entry, on the extended reals

`DotDims.transposedRhs M K N` has the fields of every printed `…_1_1_0_0_n_n` record of rank-2 operands (contract the
left operand's axis 1 with the right operand's axis 1, no batch axes): the product `a · bᵀ`. Over it the host's
`dot_general` and a kernel's `tpu.matmul` into the zero splat are both, at entry `(p, q)`, the sum over `k` of
`a[p, k] · b[q, k]`.
-/

noncomputable section

namespace Cert.LibContractRhsT

open Idealize.ShloMosaic Idealize.ShloMosaic.ValueIdx

/-! ## The operand indices, axis by axis

At result index `j` and contraction index `c` the left operand is read at `(j 0, c)` and the right one at `(j 1, c)`:
a kept axis reads the result index at its place, the contracted axis reads the one coordinate of `c`. -/

/-- The left operand's row is the result's row. -/
theorem lhs_0 (M K N : Nat) (j : (⟨2, ![M, N]⟩ : Shape).Idx) (c : (DotDims.transposedRhs M K N).contr.Idx) :
    ((DotDims.transposedRhs M K N).lhsIdx j c 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction index's coordinate. -/
theorem lhs_1 (M K N : Nat) (j : (⟨2, ![M, N]⟩ : Shape).Idx) (c : (DotDims.transposedRhs M K N).contr.Idx) :
    ((DotDims.transposedRhs M K N).lhsIdx j c 1).val = (c ⟨0, Nat.one_pos⟩).val :=
  (DotDims.transposedRhs M K N).lhsIdx_val_of_single rfl j c

/-- The right operand's row is the result's column. -/
theorem rhs_0 (M K N : Nat) (j : (⟨2, ![M, N]⟩ : Shape).Idx) (c : (DotDims.transposedRhs M K N).contr.Idx) :
    ((DotDims.transposedRhs M K N).rhsIdx j c 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction index's coordinate. -/
theorem rhs_1 (M K N : Nat) (j : (⟨2, ![M, N]⟩ : Shape).Idx) (c : (DotDims.transposedRhs M K N).contr.Idx) :
    ((DotDims.transposedRhs M K N).rhsIdx j c 1).val = (c ⟨0, Nat.one_pos⟩).val :=
  (DotDims.transposedRhs M K N).rhsIdx_val_of_single rfl j c

/-- The sum over the one-axis contraction index, re-indexed by its coordinate `k : Fin K` and with both operand
    indices read off: `∑ k, a[p, k] · b[q, k]`. -/
theorem sum_eq (M K N : Nat) {φ₁ φ₂ : FTy} (a : FVec Ideal (⟨2, ![M, K]⟩ : Shape) φ₁)
    (b : FVec Ideal (⟨2, ![N, K]⟩ : Shape) φ₂) (p : Fin M) (q : Fin N) :
    (∑ c : (DotDims.transposedRhs M K N).contr.Idx,
        a ((DotDims.transposedRhs M K N).lhsIdx (ix2 p q) c) * b ((DotDims.transposedRhs M K N).rhsIdx (ix2 p q) c))
      = ∑ k : Fin K, a (ix2 p k) * b (ix2 q k) := by
  rw [← Equiv.sum_comp (ValueIdx.contrEquiv1 (DotDims.transposedRhs M K N) K rfl rfl).symm]
  refine Finset.sum_congr rfl fun k _ => ?_
  have hk := ValueIdx.contrEquiv1_symm_val (DotDims.transposedRhs M K N) K rfl rfl k
  have el : (DotDims.transposedRhs M K N).lhsIdx (ix2 p q) ((ValueIdx.contrEquiv1 (DotDims.transposedRhs M K N) K rfl rfl).symm k)
      = ix2 p k := funext fun x => Fin.ext (by
    match x with
    | ⟨0, _⟩ => exact lhs_0 M K N _ _
    | ⟨1, _⟩ => exact (lhs_1 M K N _ _).trans hk)
  have er : (DotDims.transposedRhs M K N).rhsIdx (ix2 p q) ((ValueIdx.contrEquiv1 (DotDims.transposedRhs M K N) K rfl rfl).symm k)
      = ix2 q k := funext fun x => Fin.ext (by
    match x with
    | ⟨0, _⟩ => exact rhs_0 M K N _ _
    | ⟨1, _⟩ => exact (rhs_1 M K N _ _).trans hk)
  rw [el, er]

/-! ## The contraction read at an entry -/

/-- The host's `dot_general` contracting both operands' last axes, at entry `(p, q)`: `∑ k, a[p, k] · b[q, k]`. -/
theorem dotGeneral_apply (M K N : Nat) {φ₁ φ₂ : FTy} (prec : Option ContractPrecision)
    (a : FVec Ideal (⟨2, ![M, K]⟩ : Shape) φ₁) (b : FVec Ideal (⟨2, ![N, K]⟩ : Shape) φ₂) (p : Fin M) (q : Fin N) :
    Host.dotGeneral (DotDims.transposedRhs M K N) prec a b (ix2 p q) = ∑ k : Fin K, a (ix2 p k) * b (ix2 q k) := by
  simp only [Host.dotGeneral]
  rw [Ideal.dotGeneral_apply]
  exact sum_eq M K N a b p q

/-- A kernel's `tpu.matmul` contracting both operands' last axes into the zero splat, at entry `(p, q)`: the same sum. -/
theorem matmul_zero_apply (M K N : Nat) {φ₁ φ₂ : FTy} (prec : Option ContractPrecision)
    (a : FVec Ideal (⟨2, ![M, K]⟩ : Shape) φ₁) (b : FVec Ideal (⟨2, ![N, K]⟩ : Shape) φ₂) (p : Fin M) (q : Fin N) :
    matmul (DotDims.transposedRhs M K N) prec a b (constant (F := Ideal) (⟨2, ![M, N]⟩ : Shape) .f32 0x00000000#32) (ix2 p q)
      = ∑ k : Fin K, a (ix2 p k) * b (ix2 q k) := by
  simp only [matmul]
  rw [Ideal.matmul_constant_zero_apply]
  exact sum_eq M K N a b p q

end Cert.LibContractRhsT

end
-- ==== Proof.KernelBlock.lean ====
import proofs.«151921_j3556232921930_1_alg».proof.Proof.Gen.KernelIdeal.Skeleton
import proofs.«151921_j3556232921930_1_alg».proof.Proof.GroupNormRow
import proofs.«151921_j3556232921930_1_alg».proof.Proof.GroupLayout
import proofs.«151921_j3556232921930_1_alg».proof.Proof.LibContractRhsT
import Idealize.ShloMosaic.Lib.ValueLayout

/-!
# What the kernel's body computes on one block, entry by entry

The body sees a block `x` of 256 input rows, the whole weight `w`, and the vectors `b`, `gw`, `gb`. Its one store
holds, at row `p` and column `q`, the row function of `Cert.GroupNormRow` applied to row `p` of the block: the
contraction against `w` plus the bias is the row's hidden vector; the reshape to `[256, 32, 128]` exposes the groups;
the two lane sums divided by 128 are the mean and the variance; `rsqrt`, the scale and shift, the comparison with zero
and the doubling are entry by entry. The stages below are the body's own operations, named one group at a time.
-/

noncomputable section

namespace Cert.KernelIdeal.Block

open Cert.KernelIdeal Cert.KernelIdeal.Gen Idealize.ShloMosaic Idealize.ShloMosaic.ValueIdx Cert.GroupNormRow

variable (x : FVec Ideal S256x2048 .bf16) (w : FVec Ideal S4096x2048 .bf16) (b gw gb : FVec Ideal S4096 .f32)

/-- Row `p` of the block through the linear layer. -/
def hrow (p : Fin 256) : Fin 4096 → EReal :=
  lin (fun k => x (ix2 p k)) (fun q k => w (ix2 q k)) (fun q => b (ix1 q))

/-- A vector laid as a row and repeated down the block's 256 rows reads the vector at the column. -/
theorem rowVec_apply (v : FVec Ideal S4096 .f32) (p : Fin 256) (q : Fin 4096) :
    broadcastTo S256x4096 (shapeCast S1x4096 v shapeCasts_S4096_S1x4096) broadcasts_S1x4096_S256x4096 (ix2 p q) = v (ix1 q) :=
  (broadcastTo_1b_ab_apply _ _ p q).trans (shapeCast_a_1a_apply v _ 0 q)

/-- The hidden values of the block: `x · wᵀ + b`. -/
def hid : FVec Ideal S256x4096 .f32 :=
  addf (matmul dot_S256x2048_S4096x2048_S256x4096_1_1_0_0_n_n none (shapeCast S256x2048 x shapeCasts_S256x2048_S256x2048)
      (shapeCast S4096x2048 w shapeCasts_S4096x2048_S4096x2048) (constant S256x4096 .f32 0x00000000#32))
    (broadcastTo S256x4096 (shapeCast S1x4096 b shapeCasts_S4096_S1x4096) broadcasts_S1x4096_S256x4096)

theorem hid_apply (p : Fin 256) (q : Fin 4096) : hid x w b (ix2 p q) = hrow x w b p q := by
  unfold hid hrow lin
  rw [shapeCast_self, shapeCast_self, ValueIdx.addf_apply, rowVec_apply]
  have e1 : matmul dot_S256x2048_S4096x2048_S256x4096_1_1_0_0_n_n none x w (constant S256x4096 .f32 0x00000000#32) (ix2 p q)
      = ∑ k : Fin 2048, x (ix2 p k) * w (ix2 q k) := Cert.LibContractRhsT.matmul_zero_apply 256 2048 4096 none x w p q
  rw [e1]

/-- The hidden values seen group by group. -/
def grouped : FVec Ideal S256x32x128 .f32 := shapeCast S256x32x128 (hid x w b) shapeCasts_S256x4096_S256x32x128

theorem grouped_apply (p : Fin 256) (g : Fin 32) (j : Fin 128) : grouped x w b (ix3 p g j) = hrow x w b p (lane g j) :=
  (Cert.GroupLayout.split_apply _ _ p g j).trans (hid_apply x w b p (lane g j))

/-- The sum over each group's lanes. -/
def laneSum (v : FVec Ideal S256x32x128 .f32) : FVec Ideal S256x32 .f32 :=
  multiReduction .add [2] S256x32 v 0x00000000#32 reduces_S256x32x128_S256x32 (.inl rfl) rfl

theorem laneSum_apply (v : FVec Ideal S256x32x128 .f32) (p : Fin 256) (g : Fin 32) :
    laneSum v (ix2 p g) = ∑ j : Fin 128, v (ix3 p g j) :=
  Cert.GroupLayout.laneSum_apply v _ _ _ p g

/-- The mean over each group's lanes, kept with a trailing unit axis. -/
def laneMean (v : FVec Ideal S256x32x128 .f32) : FVec Ideal S256x32x1 .f32 :=
  divf (shapeCast S256x32x1 (laneSum v) shapeCasts_S256x32_S256x32x1) (broadcast S256x32x1 (Scalar.ofBits .f32 0x43000000#32))

theorem laneMean_apply (v : FVec Ideal S256x32x128 .f32) (p : Fin 256) (g : Fin 32) (u : Fin 1) :
    laneMean v (ix3 p g u) = Ideal.div (∑ j : Fin 128, v (ix3 p g j)) width := by
  unfold laneMean
  rw [ValueIdx.divf_apply, Cert.GroupLayout.keepdims_apply _ _ p g u, laneSum_apply]
  rfl

/-- The hidden values minus their group's mean. -/
def centered : FVec Ideal S256x32x128 .f32 :=
  subf (grouped x w b) (broadcastTo S256x32x128 (laneMean (grouped x w b)) broadcasts_S256x32x1_S256x32x128)

theorem centered_apply (p : Fin 256) (g : Fin 32) (j : Fin 128) : centered x w b (ix3 p g j) = dev (hrow x w b p) g j := by
  unfold centered dev mean
  rw [ValueIdx.subf_apply, Cert.GroupLayout.lanes_apply _ _ p g j, laneMean_apply, grouped_apply]
  simp only [grouped_apply]

/-- One over the group's standard deviation: `rsqrt (variance + ε)`. -/
def invStd : FVec Ideal S256x32x1 .f32 :=
  rsqrt (addf (laneMean (mulf (centered x w b) (centered x w b))) (broadcast S256x32x1 (Scalar.ofBits .f32 0x3727C5AC#32)))

theorem invStd_apply (p : Fin 256) (g : Fin 32) (u : Fin 1) :
    invStd x w b (ix3 p g u) = Ideal.rsqrt (var (hrow x w b p) g + eps) := by
  unfold invStd var
  show Ideal.rsqrt (laneMean (mulf (centered x w b) (centered x w b)) (ix3 p g u) + eps) = _
  rw [laneMean_apply]
  simp only [ValueIdx.mulf_apply, centered_apply]

/-- The normalised values, back in rows. -/
def normedV : FVec Ideal S256x4096 .f32 :=
  shapeCast S256x4096 (mulf (centered x w b) (broadcastTo S256x32x128 (invStd x w b) broadcasts_S256x32x1_S256x32x128))
    shapeCasts_S256x32x128_S256x4096

theorem normedV_apply (p : Fin 256) (q : Fin 4096) : normedV x w b (ix2 p q) = normed (hrow x w b p) (grp q) (lan q) := by
  unfold normedV normed
  rw [Cert.GroupLayout.merge_apply _ _ p q, ValueIdx.mulf_apply, Cert.GroupLayout.lanes_apply _ _ p (grp q) (lan q),
    centered_apply, invStd_apply]

/-- Scaled and shifted. -/
def affineV : FVec Ideal S256x4096 .f32 :=
  addf (mulf (normedV x w b) (broadcastTo S256x4096 (shapeCast S1x4096 gw shapeCasts_S4096_S1x4096) broadcasts_S1x4096_S256x4096))
    (broadcastTo S256x4096 (shapeCast S1x4096 gb shapeCasts_S4096_S1x4096) broadcasts_S1x4096_S256x4096)

theorem affineV_apply (p : Fin 256) (q : Fin 4096) :
    affineV x w b gw gb (ix2 p q) = affine (hrow x w b p) (fun q => gw (ix1 q)) (fun q => gb (ix1 q)) q := by
  unfold affineV affine
  rw [ValueIdx.addf_apply, ValueIdx.mulf_apply, rowVec_apply, rowVec_apply, normedV_apply]

/-- The leaky ReLU of the affine values. -/
def leakyV : FVec Ideal S256x4096 .f32 :=
  select (cmpf .ogt (affineV x w b gw gb) (broadcast S256x4096 (Scalar.ofBits .f32 0x00000000#32))) (affineV x w b gw gb)
    (mulf (affineV x w b gw gb) (broadcast S256x4096 (Scalar.ofBits .f32 0x3C23D70A#32)))

/-- The block the body stores. -/
def outV : FVec Ideal S256x4096 .f32 := addf (leakyV x w b gw gb) (leakyV x w b gw gb)

theorem outV_apply (p : Fin 256) (q : Fin 4096) :
    outV x w b gw gb (ix2 p q) = out (hrow x w b p) (fun q => gw (ix1 q)) (fun q => gb (ix1 q)) q := by
  unfold out
  show leaky (affineV x w b gw gb (ix2 p q)) + leaky (affineV x w b gw gb (ix2 p q)) = _
  rw [affineV_apply]

/-- The body's payload is this chain of stages: its bindings substituted. -/
theorem pay_eq : k0_pay1 (F := Ideal) x w b gw gb = outV x w b gw gb := rfl

/-- The stored block at row `p`, column `q`: the row function of row `p` of the input block. -/
theorem pay_apply (p : Fin 256) (q : Fin 4096) :
    k0_pay1 (F := Ideal) x w b gw gb (ix2 p q) = out (hrow x w b p) (fun q => gw (ix1 q)) (fun q => gb (ix1 q)) q :=
  (congrFun (pay_eq x w b gw gb) (ix2 p q)).trans (outV_apply x w b gw gb p q)

end Cert.KernelIdeal.Block

end
-- ==== Proof.Layer.lean ====
import proofs.«151921_j3556232921930_1_alg».proof.Proof.GroupNormRow

/-!
# The whole result array as one function of the five argument arrays

Entry `(r, q)` of the `[8192, 4096]` result is the row function of `Cert.GroupNormRow` applied to row `r` of `X`,
at column `q`: rows do not interact. Both programs' posts are stated with this one function.
-/

noncomputable section

namespace Cert.GroupNormRow

open Idealize.ShloMosaic Idealize.ShloMosaic.ValueIdx

/-- The layer on the whole input. -/
def layer (X : (⟨2, ![8192, 2048]⟩ : Shape).Idx → EReal) (W : (⟨2, ![4096, 2048]⟩ : Shape).Idx → EReal)
    (b gw gb : (⟨1, ![4096]⟩ : Shape).Idx → EReal) : (⟨2, ![8192, 4096]⟩ : Shape).Idx → EReal :=
  fun i => out (lin (fun k => X (ix2 (⟨(i 0).val, (i 0).isLt⟩ : Fin 8192) k)) (fun q k => W (ix2 q k)) (fun q => b (ix1 q)))
    (fun q => gw (ix1 q)) (fun q => gb (ix1 q)) (⟨(i 1).val, (i 1).isLt⟩ : Fin 4096)

/-- At an index whose coordinates are `r` and `q`, the layer is the row function of row `r` at column `q`. -/
theorem layer_at (X : (⟨2, ![8192, 2048]⟩ : Shape).Idx → EReal) (W : (⟨2, ![4096, 2048]⟩ : Shape).Idx → EReal)
    (b gw gb : (⟨1, ![4096]⟩ : Shape).Idx → EReal) (i : (⟨2, ![8192, 4096]⟩ : Shape).Idx) (r : Fin 8192) (q : Fin 4096)
    (h0 : (i 0).val = r.val) (h1 : (i 1).val = q.val) :
    layer X W b gw gb i
      = out (lin (fun k => X (ix2 r k)) (fun q k => W (ix2 q k)) (fun q => b (ix1 q))) (fun q => gw (ix1 q)) (fun q => gb (ix1 q)) q := by
  have hr : (⟨(i 0).val, (i 0).isLt⟩ : Fin 8192) = r := Fin.ext h0
  have hq : (⟨(i 1).val, (i 1).isLt⟩ : Fin 4096) = q := Fin.ext h1
  unfold layer
  rw [hr, hq]

/-- The row function depends on its arguments entry by entry. -/
theorem out_lin_congr {x x' : Fin 2048 → EReal} {W W' : Fin 4096 → Fin 2048 → EReal} {b b' gw gw' gb gb' : Fin 4096 → EReal}
    (hx : ∀ k, x k = x' k) (hW : ∀ q k, W q k = W' q k) (hb : ∀ q, b q = b' q) (hgw : ∀ q, gw q = gw' q)
    (hgb : ∀ q, gb q = gb' q) (q : Fin 4096) :
    out (lin x W b) gw gb q = out (lin x' W' b') gw' gb' q := by
  have e1 : x = x' := funext hx
  have e2 : W = W' := funext fun q => funext (hW q)
  have e3 : b = b' := funext hb
  have e4 : gw = gw' := funext hgw
  have e5 : gb = gb' := funext hgb
  rw [e1, e2, e3, e4, e5]

end Cert.GroupNormRow

end
-- ==== Proof.KernelArray.lean ====
import proofs.«151921_j3556232921930_1_alg».proof.Proof.Gen.KernelIdeal.Value
import proofs.«151921_j3556232921930_1_alg».proof.Proof.KernelBlock
import proofs.«151921_j3556232921930_1_alg».proof.Proof.Layer
import Idealize.ShloMosaic.Lib.StableHlo.Run

/-!
# The kernel's result array after the run is the layer

Grid point `t` handles rows `256 t … 256 t + 255`: its input block is those rows of the (converted) input, the other four
windows hold their whole arrays at every point, and it writes back those rows of the result. The two conversions before
the call change the format only, which on the extended reals is the identity. So what point `t` writes back is block `t`
of the layer (`flushed_eq`), the 32 blocks cover every row (`cover`), and the array ends holding the layer (`final`).
-/

noncomputable section

namespace Cert.KernelIdeal.Arr

open Cert.KernelIdeal Cert.KernelIdeal.Gen Idealize.ShloMosaic Idealize.ShloMosaic.TcCoe Idealize.SL.Sem
open Idealize.ShloMosaic.ValueIdx Cert.GroupNormRow
open Idealize.ShloMosaic.Pipeline (Dat)

variable (m : (ℓ : Loc nD τ sig) → Buf (Elt Ideal) ℓ) (ρ : Dev nD → PrngReg)

theorem offs2 : (![0, 0] : Fin 2 → Nat) = fun _ => 0 := funext fun a => by fin_cases a <;> rfl
theorem offs1 : (![0] : Fin 1 → Nat) = fun _ => 0 := funext fun a => by fin_cases a <;> rfl

/-! ## The two converted arrays as the call finds them -/

/-- The converted input holds the input's values. -/
theorem conv_x (c : Dev nD) :
    (V m c main_v0 : S8192x2048.Idx → EReal) = (m ((c : Thread nD τ).loc main_arg0) : S8192x2048.Idx → EReal) := by
  dsimp only [V, hostOps0]; after_results; rfl

/-- The converted weight holds the weight's values. -/
theorem conv_w (c : Dev nD) :
    (V m c main_v1 : S4096x2048.Idx → EReal) = (m ((c : Thread nD τ).loc main_arg1) : S4096x2048.Idx → EReal) := by
  dsimp only [V, hostOps0]; after_results; rfl

/-! ## The index maps over the grid -/

/-- The input block moves with the output block along the rows; every other block index is zero. -/
theorem idx_facts : ∀ t : Fin cfg0.N, win0_0.index t (0 : Fin 2) = win0_5.index t (0 : Fin 2)
    ∧ win0_0.index t (1 : Fin 2) = 0
    ∧ win0_1.index t (0 : Fin 2) = 0 ∧ win0_1.index t (1 : Fin 2) = 0
    ∧ win0_2.index t (0 : Fin 1) = 0 ∧ win0_3.index t (0 : Fin 1) = 0 ∧ win0_4.index t (0 : Fin 1) = 0
    ∧ win0_5.index t (1 : Fin 2) = 0 ∧ win0_5.index t (0 : Fin 2) ≤ 31 :=
  (by decide +kernel : ∀ t : Fin grid0.N, _)

/-- Every one of the 32 row blocks is some point's. -/
theorem idx_onto : ∀ (q0 : Fin 32) (q1 : Fin 1), ∃ t : Fin cfg0.N, win0_5.index t = ![q0.val, q1.val] :=
  (by decide +kernel : ∀ (q0 : Fin 32) (q1 : Fin 1), ∃ t : Fin grid0.N, win0_5.index t = ![q0.val, q1.val])

/-! ## What a point writes back -/

/-- Point `t` writes back block `t` of the layer of the argument arrays. -/
theorem flushed_eq (c : Dev nD) (t : Fin cfg0.N) :
    (dats m 0 c).flushed 5 t = ((cfg0.win 5).blk t).view.read (Elt Ideal)
      (layer (m ((c : Thread nD τ).loc main_arg0)) (m ((c : Thread nD τ).loc main_arg1)) (m ((c : Thread nD τ).loc main_arg2))
        (m ((c : Thread nD τ).loc main_arg3)) (m ((c : Thread nD τ).loc main_arg4))) := by
  rw [Cert.KernelIdeal.Value.flushed5]
  unfold out0_5
  rw [View.canon_unit_zero offs2]
  simp only [View.ld_unit_zero (S := S256x2048) offs2, View.ld_unit_zero (S := S4096x2048) offs2,
    View.ld_unit_zero (S := S4096) offs1]
  obtain ⟨e0, e1, e2, e3, e4, e5, e6, e7, e8⟩ := idx_facts t
  funext y
  obtain ⟨p, q, rfl⟩ : ∃ (p : Fin 256) (q : Fin 4096), y = ix2 p q := ⟨y 0, y 1, eq_ix2 y⟩
  have hp := p.isLt
  have hq := q.isLt
  show k0_pay1 (F := Ideal) (iblk m c 0 t) (iblk m c 1 t) (iblk m c 2 t) (iblk m c 3 t) (iblk m c 4 t) (ix2 p q)
    = layer (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 5).blk t).view.emb (ix2 p q))
  refine (Cert.KernelIdeal.Block.pay_apply (iblk m c 0 t) (iblk m c 1 t) (iblk m c 2 t) (iblk m c 3 t) (iblk m c 4 t) p q).trans ?_
  refine Eq.trans ?_ (layer_at _ _ _ _ _ (((cfg0.win 5).blk t).view.emb (ix2 p q))
    (⟨win0_5.index t (0 : Fin 2) * 256 + p.val, by omega⟩ : Fin 8192) q ?_ ?_).symm
  · unfold Cert.KernelIdeal.Block.hrow
    refine out_lin_congr (fun k => ?_) (fun q' k => ?_) (fun q' => ?_) (fun q' => ?_) (fun q' => ?_) q
    · have hk := k.isLt
      show V m c main_v0 (((cfg0.win 0).blk t).view.emb (ix2 p k)) = _
      rw [conv_x]
      refine congrArg _ (funext fun a => Fin.ext ?_)
      match a with
      | ⟨0, _⟩ => show win0_0.index t (0 : Fin 2) * 256 + 1 * p.val = win0_5.index t (0 : Fin 2) * 256 + p.val; omega
      | ⟨1, _⟩ => show win0_0.index t (1 : Fin 2) * 2048 + 1 * k.val = k.val; omega
    · have hk := k.isLt
      have hq' := q'.isLt
      show V m c main_v1 (((cfg0.win 1).blk t).view.emb (ix2 q' k)) = _
      rw [conv_w]
      refine congrArg _ (funext fun a => Fin.ext ?_)
      match a with
      | ⟨0, _⟩ => show win0_1.index t (0 : Fin 2) * 4096 + 1 * q'.val = q'.val; omega
      | ⟨1, _⟩ => show win0_1.index t (1 : Fin 2) * 2048 + 1 * k.val = k.val; omega
    · have hq' := q'.isLt
      show V m c main_arg2 (((cfg0.win 2).blk t).view.emb (ix1 q')) = _
      rw [V_main_arg2]
      refine congrArg _ (funext fun a => Fin.ext ?_)
      match a with
      | ⟨0, _⟩ => show win0_2.index t (0 : Fin 1) * 4096 + 1 * q'.val = q'.val; omega
    · have hq' := q'.isLt
      show V m c main_arg3 (((cfg0.win 3).blk t).view.emb (ix1 q')) = _
      rw [V_main_arg3]
      refine congrArg _ (funext fun a => Fin.ext ?_)
      match a with
      | ⟨0, _⟩ => show win0_3.index t (0 : Fin 1) * 4096 + 1 * q'.val = q'.val; omega
    · have hq' := q'.isLt
      show V m c main_arg4 (((cfg0.win 4).blk t).view.emb (ix1 q')) = _
      rw [V_main_arg4]
      refine congrArg _ (funext fun a => Fin.ext ?_)
      match a with
      | ⟨0, _⟩ => show win0_4.index t (0 : Fin 1) * 4096 + 1 * q'.val = q'.val; omega
  · show win0_5.index t (0 : Fin 2) * 256 + 1 * p.val = win0_5.index t (0 : Fin 2) * 256 + p.val
    omega
  · show win0_5.index t (1 : Fin 2) * 4096 + 1 * q.val = q.val
    omega

/-! ## The blocks cover the array -/

/-- An index is in point `t`'s block iff each coordinate is in the block's range on its axis. -/
theorem mem_blk (t : Fin cfg0.N) (i : S8192x4096.Idx) :
    i ∈ ((cfg0.win 5).blk t).view.set ↔ ∀ a : Fin 2, win0_5.index t a * S256x4096.size a ≤ (i a).val
      ∧ (i a).val < win0_5.index t a * S256x4096.size a + S256x4096.size a := by
  show i ∈ ((View.whole main_v2).slice (win0_5.rect t)).set ↔ _
  rw [View.set_slice_whole, Rect.mem_set_unit]
  exact Iff.rfl

/-- Row `r` lies in the block of the point whose block index is `r / 256`. -/
theorem cover (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  obtain ⟨t, ht⟩ := idx_onto ⟨(i 0).val / 256, by omega⟩ ⟨(i 1).val / 4096, by omega⟩
  have q0 : win0_5.index t (0 : Fin 2) = (i 0).val / 256 := congrFun ht 0
  have q1 : win0_5.index t (1 : Fin 2) = (i 1).val / 4096 := congrFun ht 1
  refine ⟨t, flush0_5 t, ?_⟩
  rw [mem_blk]
  intro a
  match a with
  | ⟨0, _⟩ =>
    show win0_5.index t (0 : Fin 2) * 256 ≤ (i 0).val ∧ (i 0).val < win0_5.index t (0 : Fin 2) * 256 + 256
    omega
  | ⟨1, _⟩ =>
    show win0_5.index t (1 : Fin 2) * 4096 ≤ (i 1).val ∧ (i 1).val < win0_5.index t (1 : Fin 2) * 4096 + 4096
    omega

/-! ## The array after the run, and the run -/

/-- The result array ends holding the layer of the argument arrays. -/
theorem final (c : Dev nD) :
    (dats m 0 c).arrAt 5 cfg0.N
      = layer (m ((c : Thread nD τ).loc main_arg0)) (m ((c : Thread nD τ).loc main_arg1)) (m ((c : Thread nD τ).loc main_arg2))
          (m ((c : Thread nD τ).loc main_arg3)) (m ((c : Thread nD τ).loc main_arg4)) :=
  (dats m 0 c).arrAt_eq_of_cover 5 _ (fun t _ => flushed_eq m c t) cover

/-- Every weakly fair execution of the idealized kernel ends with the result at the layer and the arguments unchanged. -/
theorem run : θ_run defs (onTc (τ := τ) (main (F := Ideal))) ⟨m, fun _ => 0, ρ⟩ fun r => ∀ c : Dev nD,
      r.2.mem ((c : Thread nD τ).loc main_v2)
        = layer (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.Arr

end
-- ==== Proof.ReferenceRows.lean ====
import proofs.«151921_j3556232921930_1_alg».proof.Proof.Gen.ReferenceIdeal.Read
import proofs.«151921_j3556232921930_1_alg».proof.Proof.GroupNormRow

/-!
# What the reference computes, entry by entry

The reference applies the same layer to all 8192 rows at once. Read one operation at a time, its result at row `r` and
column `q` is the row function of `Cert.GroupNormRow` applied to row `r` of the input: the contraction plus the bias
is the row's hidden vector, the reshape to `[8192, 32, 128]` exposes the groups, each of the two sums starts from zero
and is divided by 128, and the rest is entry by entry. The index equations say where each layout operation reads.
-/

noncomputable section

namespace Cert.ReferenceIdeal.Rows

open Cert.ReferenceIdeal Cert.ReferenceIdeal.Read Idealize.ShloMosaic Idealize.ShloMosaic.ValueIdx Cert.GroupNormRow

variable (X : (⟨S8192x2048, .f32⟩ : BufTy).Contents (Elt Ideal)) (W : (⟨S4096x2048, .f32⟩ : BufTy).Contents (Elt Ideal))
  (b gw gb : (⟨S4096, .f32⟩ : BufTy).Contents (Elt Ideal))

/-- Row `r` of the input through the linear layer. -/
def hrow (r : Fin 8192) : Fin 4096 → EReal :=
  lin (fun k => X (ix2 r k)) (fun q k => W (ix2 q k)) (fun q => b (ix1 q))

/-! ## Where the layout operations read -/

theorem idx_lhs (r : Fin 8192) (q : Fin 4096) (k : Fin 2048) : lidx_main_v0 (ix2 r q) k = ix2 r k :=
  funext fun a => Fin.ext (by match a with | ⟨0, _⟩ => rfl | ⟨1, _⟩ => rfl)

theorem idx_rhs (r : Fin 8192) (q : Fin 4096) (k : Fin 2048) : ridx_main_v0 (ix2 r q) k = ix2 q k :=
  funext fun a => Fin.ext (by match a with | ⟨0, _⟩ => rfl | ⟨1, _⟩ => rfl)

theorem idx_bias (r : Fin 8192) (q : Fin 4096) : idx_main_v1 (idx_main_v2 (ix2 r q)) = ix1 q :=
  funext fun a => Fin.ext (by match a with | ⟨0, _⟩ => rfl)

theorem idx_scale (r : Fin 8192) (q : Fin 4096) : idx_main_v24 (idx_main_v25 (ix2 r q)) = ix1 q :=
  funext fun a => Fin.ext (by match a with | ⟨0, _⟩ => rfl)

theorem idx_shift (r : Fin 8192) (q : Fin 4096) : idx_main_v27 (idx_main_v28 (ix2 r q)) = ix1 q :=
  funext fun a => Fin.ext (by match a with | ⟨0, _⟩ => rfl)

/-- The reshape to groups keeps row-major order: `(r, g, j)` reads column `g · 128 + j` of row `r`. -/
theorem idx_split (r : Fin 8192) (g : Fin 32) (j : Fin 128) : idx_main_v4 (ix3 r g j) = ix2 r (lane g j) :=
  funext fun a => Fin.ext (by
    have hg := g.isLt; have hj := j.isLt
    match a with
    | ⟨0, _⟩ => show ((r.val * 32 + g.val) * 128 + j.val) / 4096 = r.val; omega
    | ⟨1, _⟩ => show ((r.val * 32 + g.val) * 128 + j.val) % 4096 = g.val * 128 + j.val; omega)

/-- And back: `(r, q)` reads lane `q % 128` of group `q / 128`. -/
theorem idx_merge (r : Fin 8192) (q : Fin 4096) : idx_main_v23 (ix2 r q) = ix3 r (grp q) (lan q) :=
  funext fun a => Fin.ext (by
    have hq := q.isLt
    match a with
    | ⟨0, _⟩ => show (r.val * 4096 + q.val) / 4096 = r.val; omega
    | ⟨1, _⟩ => show (r.val * 4096 + q.val) / 128 % 32 = q.val / 128; omega
    | ⟨2, _⟩ => show (r.val * 4096 + q.val) % 128 = q.val % 128; omega)

theorem idx_lanes5 (r : Fin 8192) (g : Fin 32) (k : Fin 128) : idx_main_v5 (ix2 r g) k = ix3 r g k :=
  funext fun a => Fin.ext (by match a with | ⟨0, _⟩ => rfl | ⟨1, _⟩ => rfl | ⟨2, _⟩ => rfl)

theorem idx_lanes12 (r : Fin 8192) (g : Fin 32) (k : Fin 128) : idx_main_v12 (ix2 r g) k = ix3 r g k :=
  funext fun a => Fin.ext (by match a with | ⟨0, _⟩ => rfl | ⟨1, _⟩ => rfl | ⟨2, _⟩ => rfl)

theorem idx_keep6 (r : Fin 8192) (g : Fin 32) (u : Fin 1) : idx_main_v6 (ix3 r g u) = ix2 r g :=
  funext fun a => Fin.ext (by match a with | ⟨0, _⟩ => rfl | ⟨1, _⟩ => rfl)

theorem idx_keep13 (r : Fin 8192) (g : Fin 32) (u : Fin 1) : idx_main_v13 (ix3 r g u) = ix2 r g :=
  funext fun a => Fin.ext (by match a with | ⟨0, _⟩ => rfl | ⟨1, _⟩ => rfl)

theorem idx_spread9 (r : Fin 8192) (g : Fin 32) (j : Fin 128) : idx_main_v9 (ix3 r g j) = ix3 r g (0 : Fin 1) :=
  funext fun a => Fin.ext (by match a with | ⟨0, _⟩ => rfl | ⟨1, _⟩ => rfl | ⟨2, _⟩ => rfl)

theorem idx_spread16 (r : Fin 8192) (g : Fin 32) (j : Fin 128) : idx_main_v16 (ix3 r g j) = ix3 r g (0 : Fin 1) :=
  funext fun a => Fin.ext (by match a with | ⟨0, _⟩ => rfl | ⟨1, _⟩ => rfl | ⟨2, _⟩ => rfl)

theorem idx_spread21 (r : Fin 8192) (g : Fin 32) (j : Fin 128) : idx_main_v21 (ix3 r g j) = ix3 r g (0 : Fin 1) :=
  funext fun a => Fin.ext (by match a with | ⟨0, _⟩ => rfl | ⟨1, _⟩ => rfl | ⟨2, _⟩ => rfl)

/-! ## The stages -/

/-- The hidden values: `x · Wᵀ + b`. -/
theorem lin_apply (r : Fin 8192) (q : Fin 4096) : val_main_v3 (F := Ideal) X W b (ix2 r q) = hrow X W b r q := by
  unfold hrow lin
  show val_main_v0 (F := Ideal) X W (ix2 r q) + val_main_v2 (F := Ideal) b (ix2 r q) = _
  rw [val_main_v0_apply, val_main_v2_apply, val_main_v1_apply, idx_bias]
  simp only [idx_lhs, idx_rhs]

/-- The hidden values seen group by group. -/
theorem grouped_apply (r : Fin 8192) (g : Fin 32) (j : Fin 128) :
    val_main_v4 (F := Ideal) X W b (ix3 r g j) = hrow X W b r (lane g j) := by
  rw [val_main_v4_apply, idx_split, lin_apply]

/-- The group mean, kept with a trailing unit axis. -/
theorem mean_apply (r : Fin 8192) (g : Fin 32) (u : Fin 1) :
    val_main_v8 (F := Ideal) X W b (ix3 r g u) = mean (hrow X W b r) g := by
  unfold mean
  show Ideal.div (val_main_v6 (F := Ideal) X W b (ix3 r g u)) width = _
  rw [val_main_v6_apply, idx_keep6, val_main_v5_apply, val_main_cst_apply]
  show Ideal.div (Ideal.ofBits .f32 0x00000000#32 + _) width = _
  rw [Ideal.ofBits_zero_f32, zero_add]
  simp only [idx_lanes5, grouped_apply]

/-- The deviation from the group mean (the reference computes it twice: once for the variance, once for the result). -/
theorem dev_apply (r : Fin 8192) (g : Fin 32) (j : Fin 128) :
    val_main_v10 (F := Ideal) X W b (ix3 r g j) = dev (hrow X W b r) g j := by
  unfold dev
  show val_main_v4 (F := Ideal) X W b (ix3 r g j) - val_main_v9 (F := Ideal) X W b (ix3 r g j) = _
  rw [val_main_v9_apply, idx_spread9, mean_apply, grouped_apply]

theorem dev_apply' (r : Fin 8192) (g : Fin 32) (j : Fin 128) :
    val_main_v17 (F := Ideal) X W b (ix3 r g j) = dev (hrow X W b r) g j := by
  unfold dev
  show val_main_v4 (F := Ideal) X W b (ix3 r g j) - val_main_v16 (F := Ideal) X W b (ix3 r g j) = _
  rw [val_main_v16_apply, idx_spread16, mean_apply, grouped_apply]

/-- The group variance. -/
theorem var_apply (r : Fin 8192) (g : Fin 32) (u : Fin 1) :
    val_main_v15 (F := Ideal) X W b (ix3 r g u) = var (hrow X W b r) g := by
  unfold var
  show Ideal.div (val_main_v13 (F := Ideal) X W b (ix3 r g u)) width = _
  rw [val_main_v13_apply, idx_keep13, val_main_v12_apply, val_main_cst_1_apply]
  show Ideal.div (Ideal.ofBits .f32 0x00000000#32 + _) width = _
  rw [Ideal.ofBits_zero_f32, zero_add]
  simp only [idx_lanes12, val_main_v11_apply, Ideal.mulf_def, dev_apply]

/-- The normalised values. -/
theorem normed_apply (r : Fin 8192) (g : Fin 32) (j : Fin 128) :
    val_main_v22 (F := Ideal) X W b (ix3 r g j) = normed (hrow X W b r) g j := by
  unfold normed
  show val_main_v17 (F := Ideal) X W b (ix3 r g j) * val_main_v21 (F := Ideal) X W b (ix3 r g j) = _
  rw [dev_apply', val_main_v21_apply, idx_spread21]
  show _ * Ideal.rsqrt (val_main_v15 (F := Ideal) X W b (ix3 r g (0 : Fin 1)) + eps) = _
  rw [var_apply]

/-- Scaled and shifted, back in rows. -/
theorem affine_apply (r : Fin 8192) (q : Fin 4096) :
    val_main_v29 (F := Ideal) X W b gw gb (ix2 r q)
      = affine (hrow X W b r) (fun q => gw (ix1 q)) (fun q => gb (ix1 q)) q := by
  unfold affine
  show val_main_v23 (F := Ideal) X W b (ix2 r q) * val_main_v25 (F := Ideal) gw (ix2 r q)
      + val_main_v28 (F := Ideal) gb (ix2 r q) = _
  rw [val_main_v23_apply, idx_merge, normed_apply, val_main_v25_apply, val_main_v24_apply, idx_scale,
    val_main_v28_apply, val_main_v27_apply, idx_shift]

/-- The reference's result at row `r`, column `q`: the row function of row `r` of the input. -/
theorem out_apply (r : Fin 8192) (q : Fin 4096) :
    val_main_v35 (F := Ideal) X W b gw gb (ix2 r q)
      = out (hrow X W b r) (fun q => gw (ix1 q)) (fun q => gb (ix1 q)) q := by
  unfold out
  show leaky (val_main_v29 (F := Ideal) X W b gw gb (ix2 r q)) + leaky (val_main_v29 (F := Ideal) X W b gw gb (ix2 r q)) = _
  rw [affine_apply]

end Cert.ReferenceIdeal.Rows

end
-- ==== Proof.ReferenceLayer.lean ====
import proofs.«151921_j3556232921930_1_alg».proof.Proof.ReferenceRows
import proofs.«151921_j3556232921930_1_alg».proof.Proof.Layer

/-!
# The reference's result is the layer

Entry by entry (`Cert.ReferenceIdeal.Rows.out_apply`), with an index split into its row and column.
-/

noncomputable section

namespace Cert.ReferenceIdeal.Rows

open Cert.ReferenceIdeal Cert.ReferenceIdeal.Read Idealize.ShloMosaic Idealize.ShloMosaic.ValueIdx Cert.GroupNormRow

/-- The reference's last stage is the layer of the argument arrays. -/
theorem result_eq (X : (⟨S8192x2048, .f32⟩ : BufTy).Contents (Elt Ideal)) (W : (⟨S4096x2048, .f32⟩ : BufTy).Contents (Elt Ideal))
    (b gw gb : (⟨S4096, .f32⟩ : BufTy).Contents (Elt Ideal)) :
    val_main_v35 (F := Ideal) X W b gw gb = layer X W b gw gb := by
  funext i
  obtain ⟨r, q, rfl⟩ : ∃ (r : Fin 8192) (q : Fin 4096), i = ix2 r q := ⟨i 0, i 1, eq_ix2 i⟩
  exact (out_apply X W b gw gb r q).trans (layer_at X W b gw gb (ix2 r q) r q rfl rfl).symm

end Cert.ReferenceIdeal.Rows

end
-- ==== Proof.lean ====
/-
  A fused layer: linear `x · Wᵀ + b` (8192 rows, 2048 inputs, 4096 outputs), group normalisation over 32 groups of 128
  consecutive columns, a per-column scale and shift, a leaky ReLU with slope f32(0.01), and the result doubled (`y + y`).
  The kernel handles 256 rows per grid point with the weight and the three vectors resident; the reference is the
  same layer in jnp over all rows at once.

  On the extended reals the two programs are one function, row by row (Proof/GroupNormRow.lean, Proof/Layer.lean):
  the kernel's conversions of `x` and `W` to bf16 are the identity; its matmul into a zero accumulator and the
  reference's contraction are both `∑ k, x[r,k] · W[q,k]`; each lane sum starts from zero on both sides and is divided
  by the same 128; epsilon, the slope and the zero of the comparison are the same words on both sides. No law beyond
  `0 + s = s` is used, so the inputs' finiteness is never opened.

  The kernel side: what the body stores at an entry (Proof/KernelBlock.lean, over Proof/GroupLayout.lean's layout
  readings), then from blocks to the whole array (Proof/KernelArray.lean, over the generated blockwise value leg).
  The reference side: its generated run read one operation at a time (Proof/ReferenceRows.lean, Proof/ReferenceLayer.lean).
  The three frames are the generated ones; the ledger is empty, so `preserves` is `True`.
-/
import proofs.«151921_j3556232921930_1_alg».proof.Defs
import proofs.«151921_j3556232921930_1_alg».proof.Proof.Gen.Kernel
import proofs.«151921_j3556232921930_1_alg».proof.Proof.Gen.Kernel.Skeleton
import proofs.«151921_j3556232921930_1_alg».proof.Proof.Gen.Kernel.Launch
import proofs.«151921_j3556232921930_1_alg».proof.Proof.Gen.Kernel.Points
import proofs.«151921_j3556232921930_1_alg».proof.Proof.Gen.Kernel.Frame
import proofs.«151921_j3556232921930_1_alg».proof.Proof.Gen.KernelIdeal
import proofs.«151921_j3556232921930_1_alg».proof.Proof.Gen.KernelIdeal.Skeleton
import proofs.«151921_j3556232921930_1_alg».proof.Proof.Gen.KernelIdeal.Launch
import proofs.«151921_j3556232921930_1_alg».proof.Proof.Gen.KernelIdeal.Points
import proofs.«151921_j3556232921930_1_alg».proof.Proof.Gen.KernelIdeal.Frame
import proofs.«151921_j3556232921930_1_alg».proof.Proof.Gen.ReferenceIdeal
import proofs.«151921_j3556232921930_1_alg».proof.Proof.Gen.Pre_finite_inputs
import proofs.«151921_j3556232921930_1_alg».proof.Proof.Gen.KernelIdeal.Value
import proofs.«151921_j3556232921930_1_alg».proof.Proof.Gen.ReferenceIdeal.Run
import proofs.«151921_j3556232921930_1_alg».proof.Proof.Gen.ReferenceIdeal.Read
import proofs.«151921_j3556232921930_1_alg».proof.Proof.KernelArray
import proofs.«151921_j3556232921930_1_alg».proof.Proof.ReferenceLayer
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the result at the layer of the (agreeing) argument arrays. -/
theorem algebraic : Cert.algebraic_KernelIdeal_ReferenceIdeal := by
  intro m ρ m' ρ' _ hagree
  refine ⟨_, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ReferenceIdeal.Rows.result_eq, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
